-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x3072 : Shape := ⟨2, ![2048, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x3072 : S_.BroadcastsInDim S2048x3072 (![] : Fin 0 → Fin S2048x3072.rank)
  reducesTo_S2048x3072_S_d0_1 : S2048x3072.ReducesTo [0, 1] S_

variable [Facts]

def fn_part1 {F : FTy → Type} [FloatOps F] (main_arg4 : FVec F S2048x3072 .f32) (main_arg5 : FVec F S2048x3072 .f32) (main_arg6 : FVec F S2048x3072 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048x3072 .f32 := Host.absf main_arg4
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S2048x3072 .f32 := Host.absf main_arg5
  let main_cst_8 : FVec F S_ .f32 := constant S_ .f32 0x7F800000#32
  let main_v25 : FVec F S2048x3072 .f32 := broadcastInDim S2048x3072 ![] bcast_S_S2048x3072 main_cst_8
  let main_v26 : IVec S2048x3072 1 := cmpf .olt main_v24 main_v25
  let main_c_9 : IVec S_ 1 := constantI S_ 1 1#1
  let main_v27 : IVec S_ 1 := (fun x v => Host.reduce IntOp.andi x v reducesTo_S2048x3072_S_d0_1 h_S_) main_v26 main_c_9
  let main_v28 : IVec S_ 1 := andi main_v23 main_v27
  let main_v29 : FVec F S2048x3072 .f32 := Host.absf main_arg6
  let main_cst_10 : FVec F S_ .f32 := constant S_ .f32 0x7F800000#32
  let main_v30 : FVec F S2048x3072 .f32 := broadcastInDim S2048x3072 ![] bcast_S_S2048x3072 main_cst_10
  let main_v31 : IVec S2048x3072 1 := cmpf .olt main_v29 main_v30
  let main_c_11 : IVec S_ 1 := constantI S_ 1 1#1
  let main_v32 : IVec S_ 1 := (fun x v => Host.reduce IntOp.andi x v reducesTo_S2048x3072_S_d0_1 h_S_) main_v31 main_c_11
  let main_v33 : IVec S_ 1 := andi main_v28 main_v32
  main_v33

def fn {F : FTy → Type} [FloatOps F] (main_arg0 : FVec F S4096x1024 .f32) (main_arg1 : FVec F S4096x2048 .f32) (main_arg2 : FVec F S4096x2048 .f32) (main_arg3 : FVec F S2048x3072 .f32) (main_arg4 : FVec F S2048x3072 .f32) (main_arg5 : FVec F S2048x3072 .f32) (main_arg6 : FVec F S2048x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_v13 main_v16
-- ==== Kernel.lean ====
abbrev S4096x1024 : Shape := ⟨2, ![4096, 1024]⟩
abbrev S4096x2048 : Shape := ⟨2, ![4096, 2048]⟩
abbrev S2048x3072 : Shape := ⟨2, ![2048, 3072]⟩
abbrev S512x2048 : Shape := ⟨2, ![512, 2048]⟩
abbrev S512x1024 : Shape := ⟨2, ![512, 1024]⟩
abbrev S512x256 : Shape := ⟨2, ![512, 256]⟩
abbrev S256x3072 : Shape := ⟨2, ![256, 3072]⟩
abbrev S256x2048 : Shape := ⟨2, ![256, 2048]⟩
abbrev S256x1024 : Shape := ⟨2, ![256, 1024]⟩
abbrev S2048x256 : Shape := ⟨2, ![2048, 256]⟩
abbrev S1024x256 : Shape := ⟨2, ![1024, 256]⟩

abbrev nBuf : Space → Nat
  | .hbm => 15
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S4096x2048, .bf16⟩
  | .hbm, ⟨8, _⟩ => ⟨S4096x1024, .bf16⟩
  | .hbm, ⟨9, _⟩ => ⟨S2048x3072, .bf16⟩
  | .hbm, ⟨10, _⟩ => ⟨S2048x3072, .bf16⟩
  | .hbm, ⟨11, _⟩ => ⟨S2048x3072, .bf16⟩
  | .hbm, ⟨12, _⟩ => ⟨S2048x3072, .bf16⟩
  | .hbm, ⟨13, _⟩ => ⟨S4096x2048, .f32⟩
  | .hbm, ⟨14, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | .local _ .vmem, ⟨10, _⟩ => ⟨S256x3072, .bf16⟩
  | .local _ .vmem, ⟨11, _⟩ => ⟨S256x3072, .bf16⟩
  | .local _ .vmem, ⟨12, _⟩ => ⟨S256x3072, .bf16⟩
  | .local _ .vmem, ⟨13, _⟩ => ⟨S256x3072, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  slices_S256x3072_o0_0_S256x2048 : S256x3072.Slices ![0, 0] S256x2048
  slices_S256x3072_o0_2048_S256x1024 : S256x3072.Slices ![0, 2048] S256x1024
  transposes_S256x2048_p1_0_S2048x256 : S256x2048.Transposes [1, 0] S2048x256
  transposes_S256x1024_p1_0_S1024x256 : S256x1024.Transposes [1, 0] S1024x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S2048x3072.size a
  hwx0_3 : ∀ i : grid0.Coords, EltTy.bits .bf16 = 32 ∨ (Rect.block (s := S2048x3072) S256x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3072.size a ≤ S2048x3072.size a
  hwx0_4 : ∀ i : grid0.Coords, EltTy.bits .bf16 = 32 ∨ (Rect.block (s := S2048x3072) S256x3072.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3072.size a ≤ S2048x3072.size a
  hwx0_5 : ∀ i : grid0.Coords, EltTy.bits .bf16 = 32 ∨ (Rect.block (s := S2048x3072) S256x3072.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x3072.size a ≤ S2048x3072.size a
  hwx0_6 : ∀ i : grid0.Coords, EltTy.bits .bf16 = 32 ∨ (Rect.block (s := S2048x3072) S256x3072.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x3072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x3072.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x3072.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x3072 : Shape := ⟨2, ![2048, 3072]⟩
abbrev S4096x3072 : Shape := ⟨2, ![4096, 3072]⟩
abbrev S8192x3072 : Shape := ⟨2, ![8192, 3072]⟩
abbrev S3072x8192 : Shape := ⟨2, ![3072, 8192]⟩
abbrev S4096x8192 : Shape := ⟨2, ![4096, 8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S4096x3072, .f32⟩
  | .hbm, ⟨8, _⟩ => ⟨S8192x3072, .f32⟩
  | .hbm, ⟨9, _⟩ => ⟨S3072x8192, .f32⟩
  | .hbm, ⟨10, _⟩ => ⟨S4096x8192, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  concatenates_S4096x2048_S4096x1024_S4096x3072_d1 : Shape.Concatenates [S4096x2048, S4096x1024] S4096x3072 1
  concatenates_S2048x3072_S2048x3072_S2048x3072_S2048x3072_S8192x3072_d0 : Shape.Concatenates [S2048x3072, S2048x3072, S2048x3072, S2048x3072] S8192x3072 0
  transposes_S8192x3072_S3072x8192_1_0 : S8192x3072.Transposes [1, 0] S3072x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x3072_S3072x8192_S4096x8192_1_0_0_1_n_n_wf : DotDims.WF S4096x3072 S3072x8192 S4096x8192 [1] [0] [0] [1] [] []

variable [Facts₀]

def dot_S4096x3072_S3072x8192_S4096x8192_1_0_0_1_n_n : DotDims S4096x3072 S3072x8192 S4096x8192 where
  lhsContracting := [1]
  rhsContracting := [0]
  lhsNonContracting := [0]
  rhsNonContracting := [1]
  lhsBatch := []
  rhsBatch := []
  wf := dot_S4096x3072_S3072x8192_S4096x8192_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.CellSpec.lean ====
/-
  One step of an LSTM cell as a function of its seven argument arrays, over the extended reals.

  The state is a batch of 4096 rows: the hidden state `h` and the cell state `c` have 2048 features, the input `x` 1024.
  Each of the four gates has a weight matrix of 2048 rows (one per output feature) and 3072 columns: columns 0..2047 meet
  `h`, columns 2048..3071 meet `x`. The pre-activation of a gate at batch row `r` and feature `n` is

      gate h x w r n = sum over k < 2048 of h[r,k] * w[n,k]  +  sum over k < 1024 of x[r,k] * w[n,2048+k],

  and the step is  c' = sigmoid(gate f) * c + sigmoid(gate i) * tanh(gate c~),   h' = sigmoid(gate o) * tanh(c').

  The two sums are one sum over the 3072 joined features (`sum_joined`: a finite sum over `Fin 3072` splits at 2048,
  in any commutative monoid, so also among extended reals where some products may be infinite), which is how a program that
  first joins `h` and `x` side by side and multiplies once computes the same pre-activation. The logistic function
  is `1 / (1 + exp (-g))` by definition, whether a program calls it by name or spells the quotient (`sigmoid_spelt`).
-/
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.CellSpec

/-- Joined feature `k < 2048` is hidden feature `k`. -/
abbrev ofHidden (k : Fin 2048) : Fin 3072 := ⟨k.val, by have := k.isLt; omega⟩

/-- Joined feature `2048 + k` is input feature `k`. -/
abbrev ofInput (k : Fin 1024) : Fin 3072 := ⟨2048 + k.val, by have := k.isLt; omega⟩

/-- A sum over the 3072 joined features is the sum over the 2048 hidden ones plus the sum over the 1024 input ones. -/
theorem sum_joined {M : Type*} [AddCommMonoid M] (f : Fin 3072 → M) :
    ∑ k : Fin 3072, f k = (∑ k : Fin 2048, f (ofHidden k)) + ∑ k : Fin 1024, f (ofInput k) :=
  Fin.sum_univ_add (M := M) (a := 2048) (b := 1024) f

abbrev Hidden := (⟨2, ![4096, 2048]⟩ : Shape).Idx → EReal
abbrev Input := (⟨2, ![4096, 1024]⟩ : Shape).Idx → EReal
abbrev Weight := (⟨2, ![2048, 3072]⟩ : Shape).Idx → EReal

/-- A gate's pre-activation at batch row `r`, output feature `n`. -/
def gate (h : Hidden) (x : Input) (w : Weight) (r : Fin 4096) (n : Fin 2048) : EReal :=
  (∑ k : Fin 2048, h (ix2 r k) * w (ix2 n (ofHidden k))) + ∑ k : Fin 1024, x (ix2 r k) * w (ix2 n (ofInput k))

/-- The same pre-activation as one sum over the joined features, for two functions `hx` (the joined row) and `wn` (the
    weight row) that agree with `h`, `x` and `w` feature by feature. -/
theorem gate_eq_sum_joined (h : Hidden) (x : Input) (w : Weight) (r : Fin 4096) (n : Fin 2048)
    (hx wn : Fin 3072 → EReal)
    (hh : ∀ k : Fin 2048, hx (ofHidden k) = h (ix2 r k)) (hxx : ∀ k : Fin 1024, hx (ofInput k) = x (ix2 r k))
    (hw : ∀ k : Fin 3072, wn k = w (ix2 n k)) :
    ∑ k : Fin 3072, hx k * wn k = gate h x w r n := by
  rw [sum_joined, gate]
  congr 1
  · exact Finset.sum_congr rfl fun k _ => by rw [hh, hw]
  · exact Finset.sum_congr rfl fun k _ => by rw [hxx, hw]

/-- The new cell state at one entry, from the three pre-activations it needs and the old cell state. -/
def cellOf (gi gf gc c : EReal) : EReal := Ideal.logistic gf * c + Ideal.logistic gi * Ideal.tanh gc

/-- The new hidden state at one entry. -/
def hiddenOf (go c' : EReal) : EReal := Ideal.logistic go * Ideal.tanh c'

/-- The new cell state, as an array. -/
def nextC (x : Input) (h c : Hidden) (wi wf wc : Weight) : Hidden := fun i =>
  cellOf (gate h x wi (i 0) (i 1)) (gate h x wf (i 0) (i 1)) (gate h x wc (i 0) (i 1)) (c i)

/-- The new hidden state, as an array. -/
def nextH (x : Input) (h c : Hidden) (wi wf wo wc : Weight) : Hidden := fun i =>
  hiddenOf (gate h x wo (i 0) (i 1)) (nextC x h c wi wf wc i)

/-- The quotient `1 / (1 + exp (-g))` spelt with the bit pattern of the float one is the logistic function. -/
theorem sigmoid_spelt (g : EReal) :
    Ideal.div (Ideal.ofBits .f32 0x3F800000#32) (Ideal.ofBits .f32 0x3F800000#32 + Ideal.exp (-g)) = Ideal.logistic g := by
  rw [Ideal.ofBits_one_f32]; rfl

end Cert.CellSpec

end
-- ==== Proof.KernelBlock.lean ====
/-
  What one grid point of the kernel computes, entry by entry of its 512 x 256 output blocks.

  At a point the body holds a block `a` of 512 rows of the hidden state (all 2048 features), the same 512 rows `b` of the
  input (all 1024 features), a block `c` of the old cell state (512 rows, 256 features), and for each gate the 256 weight
  rows `w` of the point's output features (all 3072 columns). For each gate it multiplies `a` by the transpose of the first
  2048 columns of `w` and `b` by the transpose of the last 1024 columns, each product accumulated into zero, and adds the
  two. Entry `(p, q)` of that sum is

      gateBlk a b w p q = sum over k < 2048 of a[p,k] * w[q,k]  +  sum over k < 1024 of b[p,k] * w[q,2048+k],

  because entry `(k, q)` of the transposed slice is `w[q, k]` (resp. `w[q, 2048 + k]`). The two stored payloads are then the
  cell's two update formulas applied entry by entry to those pre-activations.
-/
import proofs.«162279_j33036888441242_1_alg».proof.Proof.Gen.KernelIdeal.Skeleton
import proofs.«162279_j33036888441242_1_alg».proof.Proof.LibPlainMatmul
import proofs.«162279_j33036888441242_1_alg».proof.Proof.CellSpec
import Idealize.ShloMosaic.Lib.Pipeline.Value

noncomputable section

open scoped BigOperators
open Idealize.ShloMosaic Idealize.ShloMosaic.ValueIdx Cert.KernelIdeal Cert.KernelIdeal.Gen Cert.CellSpec

namespace Cert.KernelIdeal.Block

/-! ## The two products' index maps: left rows and right columns kept, left axis 1 contracted with right axis 0 -/

theorem hid_lhs_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem hid_lhs_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem hid_rhs_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem hid_rhs_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

theorem inp_lhs_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem inp_lhs_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem inp_rhs_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem inp_rhs_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-! ## The two products of a gate, at an entry -/

/-- The hidden rows times the transposed first 2048 weight columns, into zero. -/
theorem hidden_product (a : FVec Ideal S512x2048 .bf16) (w : FVec Ideal S256x3072 .bf16)
    (hs : S256x3072.Slices ![0, 0] S256x2048) (ht : S256x2048.Transposes [1, 0] S2048x256) (p : Fin 512) (q : Fin 256) :
    matmul dot_S512x2048_S2048x256_S512x256_1_0_0_1_n_n none a
        (transpose S2048x256 [1, 0] (extractStridedSlice S256x2048 ![0, 0] w hs) ht)
        (constant (F := Ideal) S512x256 .f32 0x00000000#32) (ix2 p q)
      = ∑ k : Fin 2048, a (ix2 p k) * w (ix2 q (ofHidden k)) := by
  refine (Cert.LibPlainMatmul.matmul_zero_apply dot_S512x2048_S2048x256_S512x256_1_0_0_1_n_n none rfl rfl
    hid_lhs_0 hid_lhs_1 hid_rhs_0 hid_rhs_1 a _ p q).trans ?_
  refine Finset.sum_congr rfl fun k _ => congrArg (a (ix2 p k) * ·) ?_
  refine (transpose_apply [1, 0] _ ht (ix2 k q) (ix2 q k) (fun b => match b with
    | ⟨0, _⟩ => rfl
    | ⟨1, _⟩ => rfl)).trans ?_
  exact extractStridedSlice_apply ![0, 0] w hs (ix2 q k) (ix2 q (ofHidden k)) (fun b => match b with
    | ⟨0, _⟩ => by show q.val = 0 + q.val; omega
    | ⟨1, _⟩ => by show k.val = 0 + k.val; omega)

/-- The input rows times the transposed last 1024 weight columns, into zero. -/
theorem input_product (b : FVec Ideal S512x1024 .bf16) (w : FVec Ideal S256x3072 .bf16)
    (hs : S256x3072.Slices ![0, 2048] S256x1024) (ht : S256x1024.Transposes [1, 0] S1024x256) (p : Fin 512) (q : Fin 256) :
    matmul dot_S512x1024_S1024x256_S512x256_1_0_0_1_n_n none b
        (transpose S1024x256 [1, 0] (extractStridedSlice S256x1024 ![0, 2048] w hs) ht)
        (constant (F := Ideal) S512x256 .f32 0x00000000#32) (ix2 p q)
      = ∑ k : Fin 1024, b (ix2 p k) * w (ix2 q (ofInput k)) := by
  refine (Cert.LibPlainMatmul.matmul_zero_apply dot_S512x1024_S1024x256_S512x256_1_0_0_1_n_n none rfl rfl
    inp_lhs_0 inp_lhs_1 inp_rhs_0 inp_rhs_1 b _ p q).trans ?_
  refine Finset.sum_congr rfl fun k _ => congrArg (b (ix2 p k) * ·) ?_
  refine (transpose_apply [1, 0] _ ht (ix2 k q) (ix2 q k) (fun c => match c with
    | ⟨0, _⟩ => rfl
    | ⟨1, _⟩ => rfl)).trans ?_
  exact extractStridedSlice_apply ![0, 2048] w hs (ix2 q k) (ix2 q (ofInput k)) (fun c => match c with
    | ⟨0, _⟩ => by show q.val = 0 + q.val; omega
    | ⟨1, _⟩ => by show 2048 + k.val = 2048 + k.val; omega)

/-- A gate's pre-activation inside a block. -/
def gateBlk (a : FVec Ideal S512x2048 .bf16) (b : FVec Ideal S512x1024 .bf16) (w : FVec Ideal S256x3072 .bf16)
    (p : Fin 512) (q : Fin 256) : EReal :=
  (∑ k : Fin 2048, a (ix2 p k) * w (ix2 q (ofHidden k))) + ∑ k : Fin 1024, b (ix2 p k) * w (ix2 q (ofInput k))

/-! ## The named pieces of the body, at an entry -/

theorem pay5_at (v0 : Vec Ideal S512x2048 .bf16) (v2 : Vec Ideal S512x1024 .bf16) (v4 : Vec Ideal S256x3072 .bf16)
    (p : Fin 512) (q : Fin 256) : k0_pay5 v0 v2 v4 (ix2 p q) = gateBlk v0 v2 v4 p q := by
  unfold k0_pay5 k0_pay3 k0_pay4 gateBlk
  simp only [shapeCast_self]
  exact congrArg₂ (· + ·) (hidden_product v0 v4 _ _ p q) (input_product v2 v4 _ _ p q)

theorem pay6_at (v0 : Vec Ideal S512x2048 .bf16) (v2 : Vec Ideal S512x1024 .bf16) (v13 : Vec Ideal S256x3072 .bf16)
    (p : Fin 512) (q : Fin 256) : k0_pay6 v0 v2 v13 (ix2 p q) = gateBlk v0 v2 v13 p q := by
  unfold k0_pay6 k0_pay3 k0_pay4 gateBlk
  simp only [shapeCast_self]
  exact congrArg₂ (· + ·) (hidden_product v0 v13 _ _ p q) (input_product v2 v13 _ _ p q)

theorem pay7_at (v0 : Vec Ideal S512x2048 .bf16) (v2 : Vec Ideal S512x1024 .bf16) (v22 : Vec Ideal S256x3072 .bf16)
    (p : Fin 512) (q : Fin 256) : k0_pay7 v0 v2 v22 (ix2 p q) = gateBlk v0 v2 v22 p q := by
  unfold k0_pay7 k0_pay3 k0_pay4 gateBlk
  simp only [shapeCast_self]
  exact congrArg₂ (· + ·) (hidden_product v0 v22 _ _ p q) (input_product v2 v22 _ _ p q)

/-- The candidate gate is split over two named pieces and the store's own payload: its hidden product (`k0_pay9`), and the
    input product of `k0_pay4` with `k0_pay10`. -/
theorem candidate_at (v0 : Vec Ideal S512x2048 .bf16) (v2 : Vec Ideal S512x1024 .bf16) (v31 : Vec Ideal S256x3072 .bf16)
    (p : Fin 512) (q : Fin 256) :
    k0_pay9 v0 v31 (ix2 p q)
      + matmul dot_S512x1024_S1024x256_S512x256_1_0_0_1_n_n none (k0_pay4 v2) (k0_pay10 v31)
          (constant (F := Ideal) S512x256 .f32 0x00000000#32) (ix2 p q)
      = gateBlk v0 v2 v31 p q := by
  unfold k0_pay9 k0_pay10 k0_pay8 k0_pay3 k0_pay4 gateBlk
  simp only [shapeCast_self]
  exact congrArg₂ (· + ·) (hidden_product v0 v31 _ _ p q) (input_product v2 v31 _ _ p q)

/-- The payload stored to the new cell state's block, at an entry. -/
theorem cell_payload_at (v0 : Vec Ideal S512x2048 .bf16) (v2 : Vec Ideal S512x1024 .bf16)
    (v4 v13 v31 : Vec Ideal S256x3072 .bf16) (v44 : Vec Ideal S512x256 .f32) (p : Fin 512) (q : Fin 256) :
    k0_pay1 (k0_pay4 v2) (k0_pay5 v0 v2 v4) (k0_pay6 v0 v2 v13) (k0_pay9 v0 v31) (k0_pay10 v31)
        (constant (F := Ideal) S512x256 .f32 0x00000000#32) v44 (ix2 p q)
      = cellOf (gateBlk v0 v2 v4 p q) (gateBlk v0 v2 v13 p q) (gateBlk v0 v2 v31 p q) (v44 (ix2 p q)) := by
  show Ideal.logistic (k0_pay6 v0 v2 v13 (ix2 p q)) * v44 (ix2 p q)
      + Ideal.logistic (k0_pay5 v0 v2 v4 (ix2 p q)) * Ideal.tanh (k0_pay9 v0 v31 (ix2 p q)
          + matmul dot_S512x1024_S1024x256_S512x256_1_0_0_1_n_n none (k0_pay4 v2) (k0_pay10 v31)
              (constant (F := Ideal) S512x256 .f32 0x00000000#32) (ix2 p q)) = _
  rw [pay5_at, pay6_at, candidate_at]
  rfl

/-- The payload stored to the new hidden state's block, at an entry. -/
theorem hidden_payload_at (v0 : Vec Ideal S512x2048 .bf16) (v2 : Vec Ideal S512x1024 .bf16)
    (v4 v13 v22 v31 : Vec Ideal S256x3072 .bf16) (v44 : Vec Ideal S512x256 .f32) (p : Fin 512) (q : Fin 256) :
    k0_pay2 (k0_pay4 v2) (k0_pay5 v0 v2 v4) (k0_pay6 v0 v2 v13) (k0_pay7 v0 v2 v22) (k0_pay9 v0 v31) (k0_pay10 v31)
        (constant (F := Ideal) S512x256 .f32 0x00000000#32) v44 (ix2 p q)
      = hiddenOf (gateBlk v0 v2 v22 p q)
          (cellOf (gateBlk v0 v2 v4 p q) (gateBlk v0 v2 v13 p q) (gateBlk v0 v2 v31 p q) (v44 (ix2 p q))) := by
  show Ideal.logistic (k0_pay7 v0 v2 v22 (ix2 p q))
      * Ideal.tanh (k0_pay1 (k0_pay4 v2) (k0_pay5 v0 v2 v4) (k0_pay6 v0 v2 v13) (k0_pay9 v0 v31) (k0_pay10 v31)
          (constant (F := Ideal) S512x256 .f32 0x00000000#32) v44 (ix2 p q)) = _
  rw [pay7_at, cell_payload_at]
  rfl

end Cert.KernelIdeal.Block

end
-- ==== Proof.KernelValue.lean ====
/-
  The two arrays the kernel leaves, as functions of the arrays its one region finds.

  The grid has 8 x 8 points. Point `t` with coordinates `(j, i)` writes block `(i, j)` of each output: rows
  `512 i .. 512 i + 511`, features `256 j .. 256 j + 255`. There it holds rows `512 i ..` of the hidden state and of the
  input (all their features), block `(i, j)` of the old cell state, and rows `256 j ..` of each weight matrix (all 3072
  columns) — the relations between the index maps are decided once over the 64 points (`idx_facts`). So entry `(p, q)` of
  what the point computes (KernelBlock.lean) is the cell step's formula at array entry `(512 i + p, 256 j + q)`: the block
  sums read exactly the rows `512 i + p` of `h`, `x` and `256 j + q` of the weights. The 64 blocks tile each output, so
  each output array ends as the whole formula. The arrays the region finds are the arguments themselves: the casts to a
  narrower float format in front of the region are the identity on extended reals.
-/
import proofs.«162279_j33036888441242_1_alg».proof.Proof.Gen.KernelIdeal.Value
import proofs.«162279_j33036888441242_1_alg».proof.Proof.KernelBlock
import Idealize.ShloMosaic.Lib.StableHlo.Run

set_option maxRecDepth 16384

noncomputable section

open scoped BigOperators
open Cert.KernelIdeal Cert.KernelIdeal.Gen Cert.KernelIdeal.Value Cert.KernelIdeal.Block Cert.CellSpec
open Idealize.ShloMosaic Idealize.ShloMosaic.TcCoe Idealize.SL.Sem Idealize.ShloMosaic.ValueIdx Idealize.ShloMosaic.StableHlo
open Idealize.ShloMosaic.Pipeline (Dat)

namespace Cert.KernelIdeal.CellValue

variable (m : (ℓ : Loc nD τ sig) → Buf (Elt Ideal) ℓ) (ρ : Dev nD → PrngReg)

/-! ## The arrays as the region finds them -/

abbrev hid (c : Dev nD) : FVec Ideal S4096x2048 .bf16 := V m c main_v0
abbrev inp (c : Dev nD) : FVec Ideal S4096x1024 .bf16 := V m c main_v1
abbrev cel (c : Dev nD) : FVec Ideal S4096x2048 .f32 := V m c main_arg2
abbrev wI (c : Dev nD) : FVec Ideal S2048x3072 .bf16 := V m c main_v2
abbrev wF (c : Dev nD) : FVec Ideal S2048x3072 .bf16 := V m c main_v3
abbrev wO (c : Dev nD) : FVec Ideal S2048x3072 .bf16 := V m c main_v4
abbrev wC (c : Dev nD) : FVec Ideal S2048x3072 .bf16 := V m c main_v5

/-- The new cell state and the new hidden state of the arrays the region finds. -/
abbrev cellArr (c : Dev nD) : Hidden := nextC (inp m c) (hid m c) (cel m c) (wI m c) (wF m c) (wC m c)
abbrev hiddenArr (c : Dev nD) : Hidden := nextH (inp m c) (hid m c) (cel m c) (wI m c) (wF m c) (wO m c) (wC m c)

theorem hz : (![0, 0] : Fin 2 → Nat) = fun _ => 0 := funext fun a => by fin_cases a <;> rfl

/-! ## The index maps, decided over the grid -/

theorem idx_facts : ∀ t : Fin cfg0.N,
    win0_0.index t (0 : Fin 2) = win0_8.index t (0 : Fin 2) ∧ win0_0.index t (1 : Fin 2) = 0
  ∧ win0_1.index t (0 : Fin 2) = win0_8.index t (0 : Fin 2) ∧ win0_1.index t (1 : Fin 2) = 0
  ∧ win0_2.index t (0 : Fin 2) = win0_8.index t (0 : Fin 2) ∧ win0_2.index t (1 : Fin 2) = win0_8.index t (1 : Fin 2)
  ∧ win0_3.index t (0 : Fin 2) = win0_8.index t (1 : Fin 2) ∧ win0_3.index t (1 : Fin 2) = 0
  ∧ win0_4.index t (0 : Fin 2) = win0_8.index t (1 : Fin 2) ∧ win0_4.index t (1 : Fin 2) = 0
  ∧ win0_5.index t (0 : Fin 2) = win0_8.index t (1 : Fin 2) ∧ win0_5.index t (1 : Fin 2) = 0
  ∧ win0_6.index t (0 : Fin 2) = win0_8.index t (1 : Fin 2) ∧ win0_6.index t (1 : Fin 2) = 0
  ∧ win0_7.index t (0 : Fin 2) = win0_8.index t (0 : Fin 2) ∧ win0_7.index t (1 : Fin 2) = win0_8.index t (1 : Fin 2)
  ∧ win0_8.index t (0 : Fin 2) ≤ 7 ∧ win0_8.index t (1 : Fin 2) ≤ 7 :=
  (by decide +kernel : ∀ t : Fin grid0.N, _)

/-- Every block index of the 8 x 8 tiling is some point's. -/
theorem idx_onto : ∀ (q0 : Fin 8) (q1 : Fin 8), ∃ t : Fin cfg0.N, win0_8.index t = ![q0.val, q1.val] :=
  (by decide +kernel : ∀ (q0 : Fin 8) (q1 : Fin 8), ∃ t : Fin grid0.N, win0_8.index t = ![q0.val, q1.val])

/-! ## The input blocks read where the output block's entry lies -/

theorem hid_rows (c : Dev nD) (t : Fin cfg0.N) (p : Fin 512) (k : Fin 2048) (i : S4096x2048.Idx)
    (hi : (i 0).val = win0_8.index t (0 : Fin 2) * 512 + p.val) :
    (iblk m c 0 t : Vec Ideal S512x2048 .bf16) (ix2 p k) = hid m c (ix2 (i 0) k) := by
  obtain ⟨e00, e01, -⟩ := idx_facts t
  show hid m c (((cfg0.win 0).blk t).view.emb (ix2 p k)) = hid m c (ix2 (i 0) k)
  refine congrArg (hid m c) (funext fun a => Fin.ext ?_)
  match a with
  | ⟨0, _⟩ => show win0_0.index t (0 : Fin 2) * 512 + 1 * p.val = (i 0).val; omega
  | ⟨1, _⟩ => show win0_0.index t (1 : Fin 2) * 2048 + 1 * k.val = k.val; omega

theorem inp_rows (c : Dev nD) (t : Fin cfg0.N) (p : Fin 512) (k : Fin 1024) (i : S4096x2048.Idx)
    (hi : (i 0).val = win0_8.index t (0 : Fin 2) * 512 + p.val) :
    (iblk m c 1 t : Vec Ideal S512x1024 .bf16) (ix2 p k) = inp m c (ix2 (i 0) k) := by
  obtain ⟨-, -, e10, e11, -⟩ := idx_facts t
  show inp m c (((cfg0.win 1).blk t).view.emb (ix2 p k)) = inp m c (ix2 (i 0) k)
  refine congrArg (inp m c) (funext fun a => Fin.ext ?_)
  match a with
  | ⟨0, _⟩ => show win0_1.index t (0 : Fin 2) * 512 + 1 * p.val = (i 0).val; omega
  | ⟨1, _⟩ => show win0_1.index t (1 : Fin 2) * 1024 + 1 * k.val = k.val; omega

theorem cel_entry (c : Dev nD) (t : Fin cfg0.N) (p : Fin 512) (q : Fin 256) (i : S4096x2048.Idx)
    (hi0 : (i 0).val = win0_8.index t (0 : Fin 2) * 512 + p.val) (hi1 : (i 1).val = win0_8.index t (1 : Fin 2) * 256 + q.val) :
    (iblk m c 2 t : Vec Ideal S512x256 .f32) (ix2 p q) = cel m c i := by
  obtain ⟨-, -, -, -, e20, e21, -⟩ := idx_facts t
  show cel m c (((cfg0.win 2).blk t).view.emb (ix2 p q)) = cel m c i
  refine congrArg (cel m c) (funext fun a => Fin.ext ?_)
  match a with
  | ⟨0, _⟩ => show win0_2.index t (0 : Fin 2) * 512 + 1 * p.val = (i 0).val; omega
  | ⟨1, _⟩ => show win0_2.index t (1 : Fin 2) * 256 + 1 * q.val = (i 1).val; omega

theorem wI_rows (c : Dev nD) (t : Fin cfg0.N) (q : Fin 256) (k : Fin 3072) (i : S4096x2048.Idx)
    (hi : (i 1).val = win0_8.index t (1 : Fin 2) * 256 + q.val) :
    (iblk m c 3 t : Vec Ideal S256x3072 .bf16) (ix2 q k) = wI m c (ix2 (i 1) k) := by
  obtain ⟨-, -, -, -, -, -, e30, e31, e40, e41, e50, e51, e60, e61, -⟩ := idx_facts t
  show wI m c (((cfg0.win 3).blk t).view.emb (ix2 q k)) = wI m c (ix2 (i 1) k)
  refine congrArg (wI m c) (funext fun a => Fin.ext ?_)
  match a with
  | ⟨0, _⟩ => show win0_3.index t (0 : Fin 2) * 256 + 1 * q.val = (i 1).val; omega
  | ⟨1, _⟩ => show win0_3.index t (1 : Fin 2) * 3072 + 1 * k.val = k.val; omega

theorem wF_rows (c : Dev nD) (t : Fin cfg0.N) (q : Fin 256) (k : Fin 3072) (i : S4096x2048.Idx)
    (hi : (i 1).val = win0_8.index t (1 : Fin 2) * 256 + q.val) :
    (iblk m c 4 t : Vec Ideal S256x3072 .bf16) (ix2 q k) = wF m c (ix2 (i 1) k) := by
  obtain ⟨-, -, -, -, -, -, e30, e31, e40, e41, e50, e51, e60, e61, -⟩ := idx_facts t
  show wF m c (((cfg0.win 4).blk t).view.emb (ix2 q k)) = wF m c (ix2 (i 1) k)
  refine congrArg (wF m c) (funext fun a => Fin.ext ?_)
  match a with
  | ⟨0, _⟩ => show win0_4.index t (0 : Fin 2) * 256 + 1 * q.val = (i 1).val; omega
  | ⟨1, _⟩ => show win0_4.index t (1 : Fin 2) * 3072 + 1 * k.val = k.val; omega

theorem wO_rows (c : Dev nD) (t : Fin cfg0.N) (q : Fin 256) (k : Fin 3072) (i : S4096x2048.Idx)
    (hi : (i 1).val = win0_8.index t (1 : Fin 2) * 256 + q.val) :
    (iblk m c 5 t : Vec Ideal S256x3072 .bf16) (ix2 q k) = wO m c (ix2 (i 1) k) := by
  obtain ⟨-, -, -, -, -, -, e30, e31, e40, e41, e50, e51, e60, e61, -⟩ := idx_facts t
  show wO m c (((cfg0.win 5).blk t).view.emb (ix2 q k)) = wO m c (ix2 (i 1) k)
  refine congrArg (wO m c) (funext fun a => Fin.ext ?_)
  match a with
  | ⟨0, _⟩ => show win0_5.index t (0 : Fin 2) * 256 + 1 * q.val = (i 1).val; omega
  | ⟨1, _⟩ => show win0_5.index t (1 : Fin 2) * 3072 + 1 * k.val = k.val; omega

theorem wC_rows (c : Dev nD) (t : Fin cfg0.N) (q : Fin 256) (k : Fin 3072) (i : S4096x2048.Idx)
    (hi : (i 1).val = win0_8.index t (1 : Fin 2) * 256 + q.val) :
    (iblk m c 6 t : Vec Ideal S256x3072 .bf16) (ix2 q k) = wC m c (ix2 (i 1) k) := by
  obtain ⟨-, -, -, -, -, -, e30, e31, e40, e41, e50, e51, e60, e61, -⟩ := idx_facts t
  show wC m c (((cfg0.win 6).blk t).view.emb (ix2 q k)) = wC m c (ix2 (i 1) k)
  refine congrArg (wC m c) (funext fun a => Fin.ext ?_)
  match a with
  | ⟨0, _⟩ => show win0_6.index t (0 : Fin 2) * 256 + 1 * q.val = (i 1).val; omega
  | ⟨1, _⟩ => show win0_6.index t (1 : Fin 2) * 3072 + 1 * k.val = k.val; omega

/-- A block pre-activation is the array pre-activation at the entry under it, when the block rows are the array rows. -/
theorem gateBlk_eq_gate (a : FVec Ideal S512x2048 .bf16) (b : FVec Ideal S512x1024 .bf16) (w : FVec Ideal S256x3072 .bf16)
    (H : Hidden) (X : Input) (W : Weight) (p : Fin 512) (q : Fin 256) (r : Fin 4096) (n : Fin 2048)
    (ha : ∀ k : Fin 2048, a (ix2 p k) = H (ix2 r k)) (hb : ∀ k : Fin 1024, b (ix2 p k) = X (ix2 r k))
    (hw : ∀ k : Fin 3072, w (ix2 q k) = W (ix2 n k)) :
    gateBlk a b w p q = gate H X W r n := by
  unfold gateBlk gate
  congr 1
  · exact Finset.sum_congr rfl fun k _ => by rw [ha, hw]
  · exact Finset.sum_congr rfl fun k _ => by rw [hb, hw]

/-- The array entry under entry `(p, q)` of point `t`'s output block. -/
theorem under (t : Fin cfg0.N) (p : Fin 512) (q : Fin 256) :
    ((((cfg0.win 8).blk t).view.emb (ix2 p q)) 0).val = win0_8.index t (0 : Fin 2) * 512 + p.val
    ∧ ((((cfg0.win 8).blk t).view.emb (ix2 p q)) 1).val = win0_8.index t (1 : Fin 2) * 256 + q.val := by
  constructor
  · show win0_8.index t (0 : Fin 2) * 512 + 1 * p.val = _; omega
  · show win0_8.index t (1 : Fin 2) * 256 + 1 * q.val = _; omega

/-! ## What a point writes back -/

/-- Point `t` writes block `t` of the new cell state. -/
theorem flushed_cell (c : Dev nD) (t : Fin cfg0.N) :
    (dats m 0 c).flushed 8 t = ((cfg0.win 8).blk t).view.read (Elt Ideal) (cellArr m c) := by
  rw [flushed8]
  unfold out0_8
  rw [View.canon_unit_zero hz]
  simp only [View.ld_unit_zero (S := S512x2048) hz, View.ld_unit_zero (S := S512x1024) hz,
    View.ld_unit_zero (S := S512x256) hz, View.ld_unit_zero (S := S256x3072) hz]
  funext j
  obtain ⟨p, q, rfl⟩ : ∃ (p : Fin 512) (q : Fin 256), j = ix2 p q := ⟨j 0, j 1, eq_ix2 j⟩
  obtain ⟨u0, u1⟩ := under t p q
  refine (cell_payload_at (iblk m c 0 t) (iblk m c 1 t) (iblk m c 3 t) (iblk m c 4 t) (iblk m c 6 t) (iblk m c 2 t) p q).trans ?_
  show _ = cellOf (gate (hid m c) (inp m c) (wI m c) ((((cfg0.win 8).blk t).view.emb (ix2 p q)) 0) ((((cfg0.win 8).blk t).view.emb (ix2 p q)) 1))
    (gate (hid m c) (inp m c) (wF m c) ((((cfg0.win 8).blk t).view.emb (ix2 p q)) 0) ((((cfg0.win 8).blk t).view.emb (ix2 p q)) 1))
    (gate (hid m c) (inp m c) (wC m c) ((((cfg0.win 8).blk t).view.emb (ix2 p q)) 0) ((((cfg0.win 8).blk t).view.emb (ix2 p q)) 1))
    (cel m c (((cfg0.win 8).blk t).view.emb (ix2 p q)))
  rw [gateBlk_eq_gate (iblk m c 0 t) (iblk m c 1 t) (iblk m c 3 t) (hid m c) (inp m c) (wI m c) p q _ _
      (fun k => hid_rows m c t p k _ u0) (fun k => inp_rows m c t p k _ u0) (fun k => wI_rows m c t q k _ u1),
    gateBlk_eq_gate (iblk m c 0 t) (iblk m c 1 t) (iblk m c 4 t) (hid m c) (inp m c) (wF m c) p q _ _
      (fun k => hid_rows m c t p k _ u0) (fun k => inp_rows m c t p k _ u0) (fun k => wF_rows m c t q k _ u1),
    gateBlk_eq_gate (iblk m c 0 t) (iblk m c 1 t) (iblk m c 6 t) (hid m c) (inp m c) (wC m c) p q _ _
      (fun k => hid_rows m c t p k _ u0) (fun k => inp_rows m c t p k _ u0) (fun k => wC_rows m c t q k _ u1),
    cel_entry m c t p q _ u0 u1]

/-- The array entry under entry `(p, q)` of point `t`'s block of the other output: the two outputs share their index map. -/
theorem under_hidden (t : Fin cfg0.N) (p : Fin 512) (q : Fin 256) :
    ((((cfg0.win 7).blk t).view.emb (ix2 p q)) 0).val = win0_8.index t (0 : Fin 2) * 512 + p.val
    ∧ ((((cfg0.win 7).blk t).view.emb (ix2 p q)) 1).val = win0_8.index t (1 : Fin 2) * 256 + q.val := by
  obtain ⟨-, -, -, -, -, -, -, -, -, -, -, -, -, -, e70, e71, -⟩ := idx_facts t
  constructor
  · show win0_7.index t (0 : Fin 2) * 512 + 1 * p.val = _; omega
  · show win0_7.index t (1 : Fin 2) * 256 + 1 * q.val = _; omega

/-- Point `t` writes block `t` of the new hidden state. -/
theorem flushed_hidden (c : Dev nD) (t : Fin cfg0.N) :
    (dats m 0 c).flushed 7 t = ((cfg0.win 7).blk t).view.read (Elt Ideal) (hiddenArr m c) := by
  rw [flushed7]
  unfold out0_7
  rw [View.canon_unit_zero hz]
  simp only [View.ld_unit_zero (S := S512x2048) hz, View.ld_unit_zero (S := S512x1024) hz,
    View.ld_unit_zero (S := S512x256) hz, View.ld_unit_zero (S := S256x3072) hz]
  funext j
  obtain ⟨p, q, rfl⟩ : ∃ (p : Fin 512) (q : Fin 256), j = ix2 p q := ⟨j 0, j 1, eq_ix2 j⟩
  obtain ⟨u0, u1⟩ := under_hidden t p q
  refine (hidden_payload_at (iblk m c 0 t) (iblk m c 1 t) (iblk m c 3 t) (iblk m c 4 t) (iblk m c 5 t) (iblk m c 6 t) (iblk m c 2 t) p q).trans ?_
  show _ = hiddenOf (gate (hid m c) (inp m c) (wO m c) ((((cfg0.win 7).blk t).view.emb (ix2 p q)) 0) ((((cfg0.win 7).blk t).view.emb (ix2 p q)) 1))
    (cellOf (gate (hid m c) (inp m c) (wI m c) ((((cfg0.win 7).blk t).view.emb (ix2 p q)) 0) ((((cfg0.win 7).blk t).view.emb (ix2 p q)) 1))
      (gate (hid m c) (inp m c) (wF m c) ((((cfg0.win 7).blk t).view.emb (ix2 p q)) 0) ((((cfg0.win 7).blk t).view.emb (ix2 p q)) 1))
      (gate (hid m c) (inp m c) (wC m c) ((((cfg0.win 7).blk t).view.emb (ix2 p q)) 0) ((((cfg0.win 7).blk t).view.emb (ix2 p q)) 1))
      (cel m c (((cfg0.win 7).blk t).view.emb (ix2 p q))))
  rw [gateBlk_eq_gate (iblk m c 0 t) (iblk m c 1 t) (iblk m c 5 t) (hid m c) (inp m c) (wO m c) p q _ _
      (fun k => hid_rows m c t p k _ u0) (fun k => inp_rows m c t p k _ u0) (fun k => wO_rows m c t q k _ u1),
    gateBlk_eq_gate (iblk m c 0 t) (iblk m c 1 t) (iblk m c 3 t) (hid m c) (inp m c) (wI m c) p q _ _
      (fun k => hid_rows m c t p k _ u0) (fun k => inp_rows m c t p k _ u0) (fun k => wI_rows m c t q k _ u1),
    gateBlk_eq_gate (iblk m c 0 t) (iblk m c 1 t) (iblk m c 4 t) (hid m c) (inp m c) (wF m c) p q _ _
      (fun k => hid_rows m c t p k _ u0) (fun k => inp_rows m c t p k _ u0) (fun k => wF_rows m c t q k _ u1),
    gateBlk_eq_gate (iblk m c 0 t) (iblk m c 1 t) (iblk m c 6 t) (hid m c) (inp m c) (wC m c) p q _ _
      (fun k => hid_rows m c t p k _ u0) (fun k => inp_rows m c t p k _ u0) (fun k => wC_rows m c t q k _ u1),
    cel_entry m c t p q _ u0 u1]

/-! ## The 64 blocks tile each output -/

theorem mem_blk_cell (t : Fin cfg0.N) (i : S4096x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v6_1).slice (win0_8.rect t)).set ↔ _
  rw [View.set_slice_whole, Rect.mem_set_unit]
  exact Iff.rfl

theorem mem_blk_hidden (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v6_0).slice (win0_7.rect t)).set ↔ _
  rw [View.set_slice_whole, Rect.mem_set_unit]
  exact Iff.rfl

/-- Entry `i` lies in the block of the point whose block index is `(i 0 / 512, i 1 / 256)`. -/
theorem cover_cell (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_8.index t (0 : Fin 2) = (i 0).val / 512 := congrFun ht 0
  have q1 : win0_8.index t (1 : Fin 2) = (i 1).val / 256 := congrFun ht 1
  refine ⟨t, flush0_8 t, ?_⟩
  rw [mem_blk_cell]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

theorem cover_hidden (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_8.index t (0 : Fin 2) = (i 0).val / 512 := congrFun ht 0
  have q1 : win0_8.index t (1 : Fin 2) = (i 1).val / 256 := congrFun ht 1
  obtain ⟨-, -, -, -, -, -, -, -, -, -, -, -, -, -, e70, e71, -⟩ := idx_facts t
  refine ⟨t, flush0_7 t, ?_⟩
  rw [mem_blk_hidden]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-! ## The two output arrays after the run -/

theorem final_cell (c : Dev nD) : (dats m 0 c).arrAt 8 cfg0.N = cellArr m c :=
  (dats m 0 c).arrAt_eq_of_cover 8 (cellArr m c) (fun t _ => flushed_cell m c t) cover_cell

theorem final_hidden (c : Dev nD) : (dats m 0 c).arrAt 7 cfg0.N = hiddenArr m c :=
  (dats m 0 c).arrAt_eq_of_cover 7 (hiddenArr m c) (fun t _ => flushed_hidden m c t) cover_hidden

/-! ## The arrays the region finds are the arguments: a cast to a narrower float format is the identity here -/

theorem hid_eq (c : Dev nD) : hid m c = m ((c : Thread nD τ).loc main_arg1) := by
  dsimp only [hid, V, hostOps0]; after_results; rfl
theorem inp_eq (c : Dev nD) : inp m c = m ((c : Thread nD τ).loc main_arg0) := by
  dsimp only [inp, V, hostOps0]; after_results; rfl
theorem wI_eq (c : Dev nD) : wI m c = m ((c : Thread nD τ).loc main_arg3) := by
  dsimp only [wI, V, hostOps0]; after_results; rfl
theorem wF_eq (c : Dev nD) : wF m c = m ((c : Thread nD τ).loc main_arg4) := by
  dsimp only [wF, V, hostOps0]; after_results; rfl
theorem wO_eq (c : Dev nD) : wO m c = m ((c : Thread nD τ).loc main_arg5) := by
  dsimp only [wO, V, hostOps0]; after_results; rfl
theorem wC_eq (c : Dev nD) : wC m c = m ((c : Thread nD τ).loc main_arg6) := by
  dsimp only [wC, V, hostOps0]; after_results; rfl
theorem cel_eq (c : Dev nD) : cel m c = m ((c : Thread nD τ).loc main_arg2) := V_main_arg2 m c

theorem cellArr_eq (c : Dev nD) : cellArr m c = nextC (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg6)) := by
  show nextC (inp m c) (hid m c) (cel m c) (wI m c) (wF m c) (wC m c) = _
  rw [inp_eq, hid_eq, cel_eq, wI_eq, wF_eq, wC_eq]

theorem hiddenArr_eq (c : Dev nD) : hiddenArr m c = nextH (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  show nextH (inp m c) (hid m c) (cel m c) (wI m c) (wF m c) (wO m c) (wC m c) = _
  rw [inp_eq, hid_eq, cel_eq, wI_eq, wF_eq, wO_eq, wC_eq]

/-! ## The run, read -/

/-- Every weakly fair execution of the kernel's program ends with its first result at the new hidden state and its
    second at the new cell state of the arguments, the arguments unchanged. -/
theorem run : θ_run defs (onTc (τ := τ) (main (F := Ideal))) ⟨m, fun _ => 0, ρ⟩ fun r => ∀ c : Dev nD,
      r.2.mem ((c : Thread nD τ).loc main_v6_0) = nextH (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_v6_1) = nextC (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final_hidden m c).trans (hiddenArr_eq m c)),
      (h c).2.1.trans ((final_cell m c).trans (cellArr_eq m c)), (h c).2.2⟩)
    (run_blocks m ρ)

end Cert.KernelIdeal.CellValue

end
-- ==== Proof.RefIsCell.lean ====
/-
  The reference program computes the cell step of CellSpec.lean.

  It joins the hidden state and the input side by side (row `r` of the joined array is `h[r, 0..2047]` followed by
  `x[r, 0..1023]`), stacks the four weight matrices one under the other (row `g * 2048 + n` of the stack is row `n` of
  gate `g`'s matrix, gates in the order input, forget, output, candidate), transposes the stack and multiplies once.
  Entry `(r, g * 2048 + n)` of the product is therefore the sum over the 3072 joined features of the joined row times the
  stacked row, which is gate `g`'s pre-activation (`CellSpec.gate_eq_sum_joined`). The four column bands of 2048 are
  the four gates; the logistic function is spelt `1 / (1 + exp (-g))`.
-/
import proofs.«162279_j33036888441242_1_alg».proof.Proof.Gen.ReferenceIdeal.Read
import proofs.«162279_j33036888441242_1_alg».proof.Proof.CellSpec

noncomputable section

open scoped BigOperators
open Idealize.ShloMosaic Idealize.ShloMosaic.ValueIdx Cert.ReferenceIdeal Cert.ReferenceIdeal.Gen Cert.ReferenceIdeal.Read Cert.CellSpec

namespace Cert.ReferenceIdeal.Cell

variable (x0 : (⟨S4096x1024, .f32⟩ : BufTy).Contents (Elt Ideal)) (x1 x2 : (⟨S4096x2048, .f32⟩ : BufTy).Contents (Elt Ideal))
  (x3 x4 x5 x6 : (⟨S2048x3072, .f32⟩ : BufTy).Contents (Elt Ideal))

/-- The joined array at a column below 2048 is the hidden state. -/
theorem joined_hidden (j : S4096x3072.Idx) (r : Fin 4096) (k : Fin 2048) (h0 : (j 0).val = r.val) (h1 : (j 1).val = k.val) :
    val_main_v0 (F := Ideal) x0 x1 j = x1 (ix2 r k) := by
  unfold val_main_v0
  exact concatenate_pair_apply_left (t := S4096x3072) 1 x1 x0 _ j rfl (ix2 r k) (fun b => match b with
    | ⟨0, _⟩ => h0.symm
    | ⟨1, _⟩ => h1.symm)

/-- The joined array at column `2048 + k` is the input at column `k`. -/
theorem joined_input (j : S4096x3072.Idx) (r : Fin 4096) (k : Fin 1024) (h0 : (j 0).val = r.val) (h1 : (j 1).val = 2048 + k.val) :
    val_main_v0 (F := Ideal) x0 x1 j = x0 (ix2 r k) := by
  unfold val_main_v0
  exact concatenate_pair_apply_right (t := S4096x3072) 1 x1 x0 _ j rfl rfl (ix2 r k) (fun b hb => match b, hb with
    | ⟨0, _⟩, _ => h0.symm
    | ⟨1, _⟩, hb => absurd (Fin.ext rfl) hb) (by show k.val + 2048 = (j 1).val; omega)

/-- An entry of a weight matrix and the entry of the stack it becomes have the same column. -/
theorem off_axis (j : S8192x3072.Idx) (n : Fin 2048) (k : Fin 3072) (h1 : (j 1).val = k.val) :
    ∀ b : Fin S2048x3072.rank, b.cast (rfl : S2048x3072.rank = S8192x3072.rank) ≠ (0 : Fin S8192x3072.rank) →
      ((ix2 n k : S2048x3072.Idx) b).val = (j (b.cast rfl)).val := fun b hb => match b, hb with
  | ⟨0, _⟩, hb => absurd (Fin.ext rfl) hb
  | ⟨1, _⟩, _ => h1.symm

/-! ## Row `off + n` of the stacked weights is row `n` of the matrix stacked at offset `off`: one statement per gate -/

theorem stacked_i (j : S8192x3072.Idx) (n : Fin 2048) (k : Fin 3072)
    (h0 : (j 0).val = 0 + n.val) (h1 : (j 1).val = k.val) :
    val_main_v1 (F := Ideal) x3 x4 x5 x6 j = x3 (ix2 n k) := by
  unfold val_main_v1
  refine concatenate_apply_piece (t := S8192x3072) 0 _ _ j 0 ?hk S2048x3072 x3 ?hxk ?hr 0 ?hpre (ix2 n k)
    (off_axis j n k h1) ?ha
  case hk => show 0 < 4; omega
  case hxk => rfl
  case hr => rfl
  case hpre => rfl
  case ha => show 0 + n.val = (j 0).val; omega

theorem stacked_f (j : S8192x3072.Idx) (n : Fin 2048) (k : Fin 3072)
    (h0 : (j 0).val = 2048 + n.val) (h1 : (j 1).val = k.val) :
    val_main_v1 (F := Ideal) x3 x4 x5 x6 j = x4 (ix2 n k) := by
  unfold val_main_v1
  refine concatenate_apply_piece (t := S8192x3072) 0 _ _ j 1 ?hk S2048x3072 x4 ?hxk ?hr 2048 ?hpre (ix2 n k)
    (off_axis j n k h1) ?ha
  case hk => show 1 < 4; omega
  case hxk => rfl
  case hr => rfl
  case hpre => rfl
  case ha => show 2048 + n.val = (j 0).val; omega

theorem stacked_o (j : S8192x3072.Idx) (n : Fin 2048) (k : Fin 3072)
    (h0 : (j 0).val = 4096 + n.val) (h1 : (j 1).val = k.val) :
    val_main_v1 (F := Ideal) x3 x4 x5 x6 j = x5 (ix2 n k) := by
  unfold val_main_v1
  refine concatenate_apply_piece (t := S8192x3072) 0 _ _ j 2 ?hk S2048x3072 x5 ?hxk ?hr 4096 ?hpre (ix2 n k)
    (off_axis j n k h1) ?ha
  case hk => show 2 < 4; omega
  case hxk => rfl
  case hr => rfl
  case hpre => rfl
  case ha => show 4096 + n.val = (j 0).val; omega

theorem stacked_c (j : S8192x3072.Idx) (n : Fin 2048) (k : Fin 3072)
    (h0 : (j 0).val = 6144 + n.val) (h1 : (j 1).val = k.val) :
    val_main_v1 (F := Ideal) x3 x4 x5 x6 j = x6 (ix2 n k) := by
  unfold val_main_v1
  refine concatenate_apply_piece (t := S8192x3072) 0 _ _ j 3 ?hk S2048x3072 x6 ?hxk ?hr 6144 ?hpre (ix2 n k)
    (off_axis j n k h1) ?ha
  case hk => show 3 < 4; omega
  case hxk => rfl
  case hr => rfl
  case hpre => rfl
  case ha => show 6144 + n.val = (j 0).val; omega

/-- Entry `(r, off + n)` of the one big product is the pre-activation at `(r, n)` of the gate whose matrix `w` is stacked at
    row offset `off` (`hrow`). -/
theorem product_band (w : (⟨S2048x3072, .f32⟩ : BufTy).Contents (Elt Ideal)) (off : Nat)
    (hrow : ∀ (j : S8192x3072.Idx) (n : Fin 2048) (k : Fin 3072), (j 0).val = off + n.val → (j 1).val = k.val →
      val_main_v1 (F := Ideal) x3 x4 x5 x6 j = w (ix2 n k))
    (j : S4096x8192.Idx) (r : Fin 4096) (n : Fin 2048)
    (h0 : (j 0).val = r.val) (h1 : (j 1).val = off + n.val) :
    val_main_v3 (F := Ideal) x0 x1 x3 x4 x5 x6 j = gate x1 x0 w r n := by
  rw [val_main_v3_apply]
  exact gate_eq_sum_joined x1 x0 w r n _ _
    (fun k => joined_hidden x0 x1 _ r k h0 rfl)
    (fun k => joined_input x0 x1 _ r k h0 rfl)
    (fun k => (val_main_v2_apply x3 x4 x5 x6 _).trans (hrow _ n k h1 rfl))

/-! ## The four column bands -/

theorem gate_i (i : S4096x2048.Idx) : val_main_v4 (F := Ideal) x0 x1 x3 x4 x5 x6 i = gate x1 x0 x3 (i 0) (i 1) :=
  (val_main_v4_apply x0 x1 x3 x4 x5 x6 i).trans (product_band x0 x1 x3 x4 x5 x6 x3 0 (stacked_i x3 x4 x5 x6) _ (i 0) (i 1) rfl
    (by show (i 1).val = 0 + (i 1).val; omega))

theorem gate_f (i : S4096x2048.Idx) : val_main_v5 (F := Ideal) x0 x1 x3 x4 x5 x6 i = gate x1 x0 x4 (i 0) (i 1) :=
  (val_main_v5_apply x0 x1 x3 x4 x5 x6 i).trans (product_band x0 x1 x3 x4 x5 x6 x4 2048 (stacked_f x3 x4 x5 x6) _ (i 0) (i 1) rfl rfl)

theorem gate_o (i : S4096x2048.Idx) : val_main_v6 (F := Ideal) x0 x1 x3 x4 x5 x6 i = gate x1 x0 x5 (i 0) (i 1) :=
  (val_main_v6_apply x0 x1 x3 x4 x5 x6 i).trans (product_band x0 x1 x3 x4 x5 x6 x5 4096 (stacked_o x3 x4 x5 x6) _ (i 0) (i 1) rfl rfl)

theorem gate_c (i : S4096x2048.Idx) : val_main_v7 (F := Ideal) x0 x1 x3 x4 x5 x6 i = gate x1 x0 x6 (i 0) (i 1) :=
  (val_main_v7_apply x0 x1 x3 x4 x5 x6 i).trans (product_band x0 x1 x3 x4 x5 x6 x6 6144 (stacked_c x3 x4 x5 x6) _ (i 0) (i 1) rfl rfl)

/-! ## The three logistic gates, spelt as quotients -/

theorem sig_i (i : S4096x2048.Idx) :
    val_main_v13 (F := Ideal) x0 x1 x3 x4 x5 x6 i = Ideal.logistic (gate x1 x0 x3 (i 0) (i 1)) := by
  rw [val_main_v13_apply, val_main_v12_apply, val_main_cst_0_apply, val_main_v11_apply, val_main_v10_apply,
    val_main_cst_apply, val_main_v9_apply, val_main_v8_apply, gate_i]
  exact sigmoid_spelt _

theorem sig_f (i : S4096x2048.Idx) :
    val_main_v19 (F := Ideal) x0 x1 x3 x4 x5 x6 i = Ideal.logistic (gate x1 x0 x4 (i 0) (i 1)) := by
  rw [val_main_v19_apply, val_main_v18_apply, val_main_cst_2_apply, val_main_v17_apply, val_main_v16_apply,
    val_main_cst_1_apply, val_main_v15_apply, val_main_v14_apply, gate_f]
  exact sigmoid_spelt _

theorem sig_o (i : S4096x2048.Idx) :
    val_main_v25 (F := Ideal) x0 x1 x3 x4 x5 x6 i = Ideal.logistic (gate x1 x0 x5 (i 0) (i 1)) := by
  rw [val_main_v25_apply, val_main_v24_apply, val_main_cst_4_apply, val_main_v23_apply, val_main_v22_apply,
    val_main_cst_3_apply, val_main_v21_apply, val_main_v20_apply, gate_o]
  exact sigmoid_spelt _

/-! ## The two results -/

/-- The reference's second result is the new cell state. -/
theorem next_c_eq : val_main_v29 (F := Ideal) x0 x1 x2 x3 x4 x5 x6 = nextC x0 x1 x2 x3 x4 x6 := by
  funext i
  rw [val_main_v29_apply, val_main_v27_apply, val_main_v28_apply, sig_f, sig_i, val_main_v26_apply, gate_c]
  rfl

/-- The reference's first result is the new hidden state. -/
theorem next_h_eq : val_main_v31 (F := Ideal) x0 x1 x2 x3 x4 x5 x6 = nextH x0 x1 x2 x3 x4 x5 x6 := by
  funext i
  rw [val_main_v31_apply, val_main_v30_apply, sig_o, next_c_eq]
  rfl

end Cert.ReferenceIdeal.Cell

end
-- ==== Proof.lean ====
/-
  One step of an LSTM cell: a tiled kernel against the plain formula.

  Both programs take the input `x` (4096 x 1024), the hidden state `h` and the cell state `c` (4096 x 2048) and four
  weight matrices (2048 x 3072 each: the first 2048 columns meet `h`, the last 1024 meet `x`) and return
  `h' = sigmoid(g_o) * tanh(c')` and `c' = sigmoid(g_f) * c + sigmoid(g_i) * tanh(g_c)`, where each pre-activation
  `g` is `h` times the transposed first columns of its matrix plus `x` times the transposed last columns
  (Proof/CellSpec.lean states this once, over the extended reals).

  The reference joins `h` and `x` side by side, stacks the four matrices, multiplies once and cuts the product into four
  column bands; one sum over 3072 joined features is the sum over the 2048 hidden plus the sum over the 1024 input
  features, in any commutative monoid (Proof/RefIsCell.lean). The kernel tiles the outputs into 8 x 8 blocks of 512 rows by
  256 features, computes at each block the two partial products per gate from the rows and weight rows the block needs,
  and writes the block back; the blocks tile the outputs (Proof/KernelBlock.lean for one block, Proof/KernelValue.lean for
  the arrays). The kernel narrows its matrix operands' float format before multiplying, which on extended reals is the
  identity, and names the logistic function where the reference spells `1 / (1 + exp (-g))`: one function. No step
  uses that the inputs are finite: sums are only regrouped, never distributed over.

  The three frames are the generated ones (the reference's is its generated run with the results dropped); the
  idealization rewrote nothing, so `preserves` has nothing to state.
-/
import proofs.«162279_j33036888441242_1_alg».proof.Defs
import proofs.«162279_j33036888441242_1_alg».proof.Proof.Gen.Kernel
import proofs.«162279_j33036888441242_1_alg».proof.Proof.Gen.Kernel.Skeleton
import proofs.«162279_j33036888441242_1_alg».proof.Proof.Gen.Kernel.Launch
import proofs.«162279_j33036888441242_1_alg».proof.Proof.Gen.Kernel.Points
import proofs.«162279_j33036888441242_1_alg».proof.Proof.Gen.Kernel.Frame
import proofs.«162279_j33036888441242_1_alg».proof.Proof.Gen.KernelIdeal
import proofs.«162279_j33036888441242_1_alg».proof.Proof.Gen.KernelIdeal.Skeleton
import proofs.«162279_j33036888441242_1_alg».proof.Proof.Gen.KernelIdeal.Launch
import proofs.«162279_j33036888441242_1_alg».proof.Proof.Gen.KernelIdeal.Points
import proofs.«162279_j33036888441242_1_alg».proof.Proof.Gen.KernelIdeal.Frame
import proofs.«162279_j33036888441242_1_alg».proof.Proof.Gen.ReferenceIdeal
import proofs.«162279_j33036888441242_1_alg».proof.Proof.Gen.Pre_finite_inputs
import proofs.«162279_j33036888441242_1_alg».proof.Proof.Gen.KernelIdeal.Value
import proofs.«162279_j33036888441242_1_alg».proof.Proof.Gen.ReferenceIdeal.Run
import proofs.«162279_j33036888441242_1_alg».proof.Proof.Gen.ReferenceIdeal.Read
import proofs.«162279_j33036888441242_1_alg».proof.Proof.KernelValue
import proofs.«162279_j33036888441242_1_alg».proof.Proof.RefIsCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the seven arguments both programs end with the new hidden state first and the new cell
    state second: the kernel's arrays by its tiling (`CellValue.run`), the reference's by its one big product cut into
    bands (`Cell.next_h_eq`, `Cell.next_c_eq`). -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6⟩ := hagree c
    rw [(h c).1, Cert.ReferenceIdeal.Read.val_main_v31_eq, Cert.ReferenceIdeal.Cell.next_h_eq, a0, a1, a2, a3, a4, a5, a6]
  · obtain ⟨a0, a1, a2, a3, a4, a5, a6⟩ := hagree c
    rw [(h c).2.1, Cert.ReferenceIdeal.Read.val_main_v29_eq, Cert.ReferenceIdeal.Cell.next_c_eq, a0, a1, a2, a3, a4, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
